-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x2048 : Shape := ⟨3, ![4, 8192, 2048]⟩
abbrev S128x2048 : Shape := ⟨2, ![128, 2048]⟩
abbrev S8x128 : Shape := ⟨2, ![8, 128]⟩
abbrev S_ : Shape := ⟨0, ![]⟩

class Facts : Prop where
  bcast_S_S4x8192x2048 : S_.BroadcastsInDim S4x8192x2048 (![] : Fin 0 → Fin S4x8192x2048.rank)
  reducesTo_S4x8192x2048_S_d0_1_2 : S4x8192x2048.ReducesTo [0, 1, 2] S_
  h_S_ : 0 < S_.numel
  bcast_S_S128x2048 : S_.BroadcastsInDim S128x2048 (![] : Fin 0 → Fin S128x2048.rank)
  reducesTo_S128x2048_S_d0_1 : S128x2048.ReducesTo [0, 1] S_
  bcast_S_S8x128 : S_.BroadcastsInDim S8x128 (![] : Fin 0 → Fin S8x128.rank)
  reducesTo_S8x128_S_d0_1 : S8x128.ReducesTo [0, 1] S_

variable [Facts]

def fn_part1 {F : FTy → Type} [FloatOps F] (main_v13 : IVec S_ 1) (main_v16 : IVec S8x128 1) : IVec S_ 1 :=
  let main_c_5 : IVec S_ 1 := constantI S_ 1 1#1
  let main_v17 : IVec S_ 1 := (fun x v => Host.reduce IntOp.andi x v reducesTo_S8x128_S_d0_1 h_S_) main_v16 main_c_5
  let main_v18 : IVec S_ 1 := andi main_v13 main_v17
  main_v18

def fn {F : FTy → Type} [FloatOps F] (main_arg0 : FVec F S4x8192x2048 .f32) (main_arg1 : FVec F S128x2048 .f32) (main_arg2 : FVec F S128x2048 .f32) (main_arg3 : FVec F S8x128 .f32) : IVec S_ 1 :=
  let main_v0 : FVec F S4x8192x2048 .f32 := Host.absf main_arg0
  let main_cst : FVec F S_ .f32 := constant S_ .f32 0x7F800000#32
  let main_v1 : FVec F S4x8192x2048 .f32 := broadcastInDim S4x8192x2048 ![] bcast_S_S4x8192x2048 main_cst
  let main_v2 : IVec S4x8192x2048 1 := cmpf .olt main_v0 main_v1
  let main_c : IVec S_ 1 := constantI S_ 1 1#1
  let main_v3 : IVec S_ 1 := (fun x v => Host.reduce IntOp.andi x v reducesTo_S4x8192x2048_S_d0_1_2 h_S_) main_v2 main_c
  let main_v4 : FVec F S128x2048 .f32 := Host.absf main_arg1
  let main_cst_0 : FVec F S_ .f32 := constant S_ .f32 0x7F800000#32
  let main_v5 : FVec F S128x2048 .f32 := broadcastInDim S128x2048 ![] bcast_S_S128x2048 main_cst_0
  let main_v6 : IVec S128x2048 1 := cmpf .olt main_v4 main_v5
  let main_c_1 : IVec S_ 1 := constantI S_ 1 1#1
  let main_v7 : IVec S_ 1 := (fun x v => Host.reduce IntOp.andi x v reducesTo_S128x2048_S_d0_1 h_S_) main_v6 main_c_1
  let main_v8 : IVec S_ 1 := andi main_v3 main_v7
  let main_v9 : FVec F S128x2048 .f32 := Host.absf main_arg2
  let main_cst_2 : FVec F S_ .f32 := constant S_ .f32 0x7F800000#32
  let main_v10 : FVec F S128x2048 .f32 := broadcastInDim S128x2048 ![] bcast_S_S128x2048 main_cst_2
  let main_v11 : IVec S128x2048 1 := cmpf .olt main_v9 main_v10
  let main_c_3 : IVec S_ 1 := constantI S_ 1 1#1
  let main_v12 : IVec S_ 1 := (fun x v => Host.reduce IntOp.andi x v reducesTo_S128x2048_S_d0_1 h_S_) main_v11 main_c_3
  let main_v13 : IVec S_ 1 := andi main_v8 main_v12
  let main_v14 : FVec F S8x128 .f32 := Host.absf main_arg3
  let main_cst_4 : FVec F S_ .f32 := constant S_ .f32 0x7F800000#32
  let main_v15 : FVec F S8x128 .f32 := broadcastInDim S8x128 ![] bcast_S_S8x128 main_cst_4
  let main_v16 : IVec S8x128 1 := cmpf .olt main_v14 main_v15
  fn_part1 (F := F) main_v13 main_v16
-- ==== Kernel.lean ====
abbrev S4x8192x2048 : Shape := ⟨3, ![4, 8192, 2048]⟩
abbrev S128x2048 : Shape := ⟨2, ![128, 2048]⟩
abbrev S8x128 : Shape := ⟨2, ![8, 128]⟩
abbrev S2048x128 : Shape := ⟨2, ![2048, 128]⟩
abbrev S4x1024x128 : Shape := ⟨3, ![4, 1024, 128]⟩
abbrev S1x2048x2048 : Shape := ⟨3, ![1, 2048, 2048]⟩
abbrev S1x256x128 : Shape := ⟨3, ![1, 256, 128]⟩
abbrev S2048x2048 : Shape := ⟨2, ![2048, 2048]⟩
abbrev S256x8x128 : Shape := ⟨3, ![256, 8, 128]⟩
abbrev S1x8x128 : Shape := ⟨3, ![1, 8, 128]⟩
abbrev S256x128 : Shape := ⟨2, ![256, 128]⟩
abbrev S256x1x128 : Shape := ⟨3, ![256, 1, 128]⟩

abbrev nBuf : Space → Nat
  | .hbm => 7
  | .vmem => 7
  | .smem => 0
  | _ => 0

abbrev bufTy : (tb : Table) → Fin (tcTables nBuf tb) → BufTy
  | .hbm, ⟨0, _⟩ => ⟨S4x8192x2048, .f32⟩
  | .hbm, ⟨1, _⟩ => ⟨S128x2048, .f32⟩
  | .hbm, ⟨2, _⟩ => ⟨S128x2048, .f32⟩
  | .hbm, ⟨3, _⟩ => ⟨S8x128, .f32⟩
  | .hbm, ⟨4, _⟩ => ⟨S2048x128, .f32⟩
  | .hbm, ⟨5, _⟩ => ⟨S2048x128, .f32⟩
  | .hbm, ⟨6, _⟩ => ⟨S4x1024x128, .f32⟩
  | .local _ .vmem, ⟨0, _⟩ => ⟨S1x2048x2048, .f32⟩
  | .local _ .vmem, ⟨1, _⟩ => ⟨S1x2048x2048, .f32⟩
  | .local _ .vmem, ⟨2, _⟩ => ⟨S2048x128, .f32⟩
  | .local _ .vmem, ⟨3, _⟩ => ⟨S2048x128, .f32⟩
  | .local _ .vmem, ⟨4, _⟩ => ⟨S8x128, .f32⟩
  | .local _ .vmem, ⟨5, _⟩ => ⟨S1x256x128, .f32⟩
  | .local _ .vmem, ⟨6, _⟩ => ⟨S1x256x128, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S128x2048_S2048x128_1_0 : S128x2048.Transposes [1, 0] S2048x128
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  shapeCasts_S2048x128_S256x8x128 : S2048x128.ShapeCasts S256x8x128
  inb_S8x128_S8x128_0_0 : ∀ a, (![0, 0] : Fin 2 → Nat) a + S8x128.size a ≤ S8x128.size a
  h_S8x128 : 0 < S8x128.numel
  shapeCasts_S8x128_S1x8x128 : S8x128.ShapeCasts S1x8x128
  broadcasts_S1x8x128_S256x8x128 : S1x8x128.Broadcasts S256x8x128
  reduces_S256x8x128_S256x128 : S256x8x128.Reduces [1] S256x128
  shapeCasts_S256x128_S256x1x128 : S256x128.ShapeCasts S256x1x128
  broadcasts_S256x1x128_S256x8x128 : S256x1x128.Broadcasts S256x8x128
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  shapeCasts_S256x128_S1x256x128 : S256x128.ShapeCasts S1x256x128
  dot_S2048x2048_S2048x128_S2048x128_1_0_0_1_n_n_wf : DotDims.WF S2048x2048 S2048x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x2048.size a ≤ S4x8192x2048.size a
  hwx0_0 : ∀ i : grid0.Coords, EltTy.bits .f32 = 32 ∨ (Rect.block (s := S4x8192x2048) S1x2048x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S2048x128.size a
  hwx0_1 : ∀ i : grid0.Coords, EltTy.bits .f32 = 32 ∨ (Rect.block (s := S2048x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S2048x128.size a
  hwx0_2 : ∀ i : grid0.Coords, EltTy.bits .f32 = 32 ∨ (Rect.block (s := S2048x128) S2048x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .f32 = 32 ∨ (Rect.block (s := S8x128) S8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x128.size a ≤ S4x1024x128.size a
  hwx0_4 : ∀ i : grid0.Coords, EltTy.bits .f32 = 32 ∨ (Rect.block (s := S4x1024x128) S1x256x128.size (cc0_transform_4 i) (hinb0_4 i)).WholeWords (EltTy.packing .f32)

variable [Facts₀]

def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf

abbrev win0_0 : Pipeline.Window sig grid0 :=
  Pipeline.Window.ofSpec (Memref.whole main_arg0) S1x2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x8192x2048 : Shape := ⟨3, ![4, 8192, 2048]⟩
abbrev S128x2048 : Shape := ⟨2, ![128, 2048]⟩
abbrev S8x128 : Shape := ⟨2, ![8, 128]⟩
abbrev S4x8192x128 : Shape := ⟨3, ![4, 8192, 128]⟩
abbrev S4x1024x8x128 : Shape := ⟨4, ![4, 1024, 8, 128]⟩
abbrev S1x1x8x128 : Shape := ⟨4, ![1, 1, 8, 128]⟩
abbrev S_ : Shape := ⟨0, ![]⟩
abbrev S4x1024x128 : Shape := ⟨3, ![4, 1024, 128]⟩
abbrev S4x1024x1x128 : Shape := ⟨4, ![4, 1024, 1, 128]⟩

abbrev nBuf : Space → Nat
  | .hbm => 28
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S128x2048, .f32⟩
  | .hbm, ⟨2, _⟩ => ⟨S128x2048, .f32⟩
  | .hbm, ⟨3, _⟩ => ⟨S8x128, .f32⟩
  | .hbm, ⟨4, _⟩ => ⟨S4x8192x128, .f32⟩
  | .hbm, ⟨5, _⟩ => ⟨S4x8192x128, .f32⟩
  | .hbm, ⟨6, _⟩ => ⟨S4x1024x8x128, .f32⟩
  | .hbm, ⟨7, _⟩ => ⟨S4x1024x8x128, .f32⟩
  | .hbm, ⟨8, _⟩ => ⟨S1x1x8x128, .f32⟩
  | .hbm, ⟨9, _⟩ => ⟨S4x1024x8x128, .f32⟩
  | .hbm, ⟨10, _⟩ => ⟨S4x1024x8x128, .f32⟩
  | .hbm, ⟨11, _⟩ => ⟨S_, .f32⟩
  | .hbm, ⟨12, _⟩ => ⟨S4x1024x128, .f32⟩
  | .hbm, ⟨13, _⟩ => ⟨S_, .f32⟩
  | .hbm, ⟨14, _⟩ => ⟨S4x1024x128, .f32⟩
  | .hbm, ⟨15, _⟩ => ⟨S4x1024x128, .f32⟩
  | .hbm, ⟨16, _⟩ => ⟨S4x1024x1x128, .f32⟩
  | .hbm, ⟨17, _⟩ => ⟨S4x1024x8x128, .f32⟩
  | .hbm, ⟨18, _⟩ => ⟨S4x1024x8x128, .f32⟩
  | .hbm, ⟨19, _⟩ => ⟨S4x1024x8x128, .f32⟩
  | .hbm, ⟨20, _⟩ => ⟨S_, .f32⟩
  | .hbm, ⟨21, _⟩ => ⟨S4x1024x128, .f32⟩
  | .hbm, ⟨22, _⟩ => ⟨S4x1024x1x128, .f32⟩
  | .hbm, ⟨23, _⟩ => ⟨S4x1024x8x128, .f32⟩
  | .hbm, ⟨24, _⟩ => ⟨S4x1024x8x128, .f32⟩
  | .hbm, ⟨25, _⟩ => ⟨S4x1024x8x128, .f32⟩
  | .hbm, ⟨26, _⟩ => ⟨S_, .f32⟩
  | .hbm, ⟨27, _⟩ => ⟨S4x1024x128, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  shapeCasts_S4x8192x128_S4x1024x8x128 : S4x8192x128.ShapeCasts S4x1024x8x128
  bcast_S8x128_S1x1x8x128_2_3 : S8x128.BroadcastsInDim S1x1x8x128 (![2, 3] : Fin 2 → Fin S1x1x8x128.rank)
  bcast_S1x1x8x128_S4x1024x8x128_0_1_2_3 : S1x1x8x128.BroadcastsInDim S4x1024x8x128 (![0, 1, 2, 3] : Fin 4 → Fin S4x1024x8x128.rank)
  reducesTo_S4x1024x8x128_S4x1024x128_d2 : S4x1024x8x128.ReducesTo [2] S4x1024x128
  h_S_ : 0 < S_.numel
  bcast_S_S4x1024x128 : S_.BroadcastsInDim S4x1024x128 (![] : Fin 0 → Fin S4x1024x128.rank)
  bcast_S4x1024x128_S4x1024x1x128_0_1_3 : S4x1024x128.BroadcastsInDim S4x1024x1x128 (![0, 1, 3] : Fin 3 → Fin S4x1024x1x128.rank)
  bcast_S4x1024x1x128_S4x1024x8x128_0_1_2_3 : S4x1024x1x128.BroadcastsInDim S4x1024x8x128 (![0, 1, 2, 3] : Fin 4 → Fin S4x1024x8x128.rank)
  dot_S4x8192x2048_S128x2048_S4x8192x128_2_1_01_0_n_n_wf : DotDims.WF S4x8192x2048 S128x2048 S4x8192x128 [2] [1] [0, 1] [0] [] []

variable [Facts₀]

def dot_S4x8192x2048_S128x2048_S4x8192x128_2_1_01_0_n_n : DotDims S4x8192x2048 S128x2048 S4x8192x128 where
  lhsContracting := [2]
  rhsContracting := [1]
  lhsNonContracting := [0, 1]
  rhsNonContracting := [0]
  lhsBatch := []
  rhsBatch := []
  wf := dot_S4x8192x2048_S128x2048_S4x8192x128_2_1_01_0_n_n_wf

class Facts : Prop extends Facts₀ where

variable [Facts]
-- ==== Proof.Spec.lean ====
/-
  The function both programs compute, on the extended reals.

  For a batch entry `b`, a window `n` of eight consecutive tokens and a head coordinate `k`:
  the two projections of token `8n + j` are the sums over the 2048 features of `h[b, 8n+j, d] · w[k, d]`
  (one with the key/value weights, one with the gate weights); the gate projection plus the bias row `j`
  is the window's logit; the logits are turned into weights by exponentiating the difference to the
  window's maximum (taken from −∞) and dividing by the sum of the eight exponentials; the result is the
  sum over the window of weight times key/value projection.
-/
import Idealize.ShloMosaic.PureOps.Ideal
import Idealize.ShloMosaic.PureOps.Ideal.Laws
import Idealize.ShloMosaic.Lib.ValueIdx

noncomputable section

namespace Cert.WindowSoftmax

open Idealize.ShloMosaic Idealize.ShloMosaic.ValueIdx

/-- The value of f32's −∞ pattern, from which both programs start a window's maximum. -/
abbrev negInf : EReal := Ideal.ofBits .f32 0xFF800000#32

/-- The maximum of a window's eight logits, started from −∞ (and compared with −∞ once more, as both programs do). -/
def wmax (z : Fin 8 → EReal) : EReal := max negInf ((Finset.univ : Finset (Fin 8)).fold max negInf z)

/-- A window's eight logits `z` and eight values `c`: the softmax weights of `z` applied to `c`, summed. -/
def soft (z c : Fin 8 → EReal) : EReal :=
  ∑ j : Fin 8, Ideal.div (Ideal.exp (z j - wmax z)) (∑ j' : Fin 8, Ideal.exp (z j' - wmax z)) * c j

/-- Token `8n + j` of the sequence: position `j` of window `n`. -/
def tok (n : Fin 1024) (j : Fin 8) : Fin 8192 := ⟨n.val * 8 + j.val, by have := n.isLt; have := j.isLt; omega⟩

/-- One token's projection onto head coordinate `k`: the sum over the features of input times weight. -/
def proj (h : (⟨3, ![4, 8192, 2048]⟩ : Shape).Idx → EReal) (w : (⟨2, ![128, 2048]⟩ : Shape).Idx → EReal)
    (b : Fin 4) (s : Fin 8192) (k : Fin 128) : EReal :=
  ∑ d : Fin 2048, h (ix3 b s d) * w (ix2 k d)

/-- The compressed output at `(b, n, k)`. -/
def G (h : (⟨3, ![4, 8192, 2048]⟩ : Shape).Idx → EReal) (wkv wz : (⟨2, ![128, 2048]⟩ : Shape).Idx → EReal)
    (bias : (⟨2, ![8, 128]⟩ : Shape).Idx → EReal) : (⟨3, ![4, 1024, 128]⟩ : Shape).Idx → EReal := fun i =>
  soft (fun j => proj h wz (i 0) (tok (i 1) j) (i 2) + bias (ix2 j (i 2)))
    (fun j => proj h wkv (i 0) (tok (i 1) j) (i 2))

theorem G_apply (h : (⟨3, ![4, 8192, 2048]⟩ : Shape).Idx → EReal) (wkv wz : (⟨2, ![128, 2048]⟩ : Shape).Idx → EReal)
    (bias : (⟨2, ![8, 128]⟩ : Shape).Idx → EReal) (b : Fin 4) (n : Fin 1024) (k : Fin 128) :
    G h wkv wz bias (ix3 b n k)
      = soft (fun j => proj h wz b (tok n j) k + bias (ix2 j k)) (fun j => proj h wkv b (tok n j) k) := rfl

end Cert.WindowSoftmax

end
-- ==== Proof.KernelPay.lean ====
/-
  The kernel body's stored value, read at one index.

  At a grid point the body holds a block of 2048 tokens (256 windows of eight) and the two transposed
  weight matrices. Entry (r, k) of what it stores is the window-softmax of Spec.lean applied to window r
  of the block: logits (row 8r+j of the block) · (column k of the gate weights) + bias (j, k), values
  (row 8r+j) · (column k of the key/value weights). The proof reads the stored vector one operation at a
  time: a product of matrices as the sum over the contracted coordinate, a reshape of the 2048 rows into
  256 × 8 as row 8r + j, the two broadcasts along the window axis, the window reductions as a sum and a
  maximum over j.
-/
import proofs.«157883_j70643622085010_1_alg».proof.Proof.Gen.KernelIdeal.Skeleton
import proofs.«157883_j70643622085010_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.TcCoe Idealize.ShloMosaic.ValueIdx Cert.WindowSoftmax

/-- Row `8r + j` of a 2048-row block: position `j` of the block's window `r`. -/
def brow (r : Fin 256) (j : Fin 8) : Fin 2048 := ⟨r.val * 8 + j.val, by have := r.isLt; have := j.isLt; omega⟩

/-! ## The product of the block with a weight matrix -/

theorem lhs_ax0 (i : S2048x128.Idx) (q : dot_S2048x2048_S2048x128_S2048x128_1_0_0_1_n_n.contr.Idx) :
    (dot_S2048x2048_S2048x128_S2048x128_1_0_0_1_n_n.lhsIdx i q 0).val = (i 0).val := by
  unfold DotDims.lhsIdx
  rw [dif_neg (show ¬(0 : Fin S2048x2048.rank) ∈ dot_S2048x2048_S2048x128_S2048x128_1_0_0_1_n_n.lhsBatch by decide), dif_pos (show (0 : Fin S2048x2048.rank) ∈ dot_S2048x2048_S2048x128_S2048x128_1_0_0_1_n_n.lhsNonContracting by decide)]
  rfl
theorem lhs_ax1 (i : S2048x128.Idx) (q : dot_S2048x2048_S2048x128_S2048x128_1_0_0_1_n_n.contr.Idx) :
    (dot_S2048x2048_S2048x128_S2048x128_1_0_0_1_n_n.lhsIdx i q 1).val = (q ⟨0, by decide⟩).val :=
  dot_S2048x2048_S2048x128_S2048x128_1_0_0_1_n_n.lhsIdx_val_of_single rfl i q
theorem rhs_ax0 (i : S2048x128.Idx) (q : dot_S2048x2048_S2048x128_S2048x128_1_0_0_1_n_n.contr.Idx) :
    (dot_S2048x2048_S2048x128_S2048x128_1_0_0_1_n_n.rhsIdx i q 0).val = (q ⟨0, by decide⟩).val :=
  dot_S2048x2048_S2048x128_S2048x128_1_0_0_1_n_n.rhsIdx_val_of_single rfl i q
theorem rhs_ax1 (i : S2048x128.Idx) (q : dot_S2048x2048_S2048x128_S2048x128_1_0_0_1_n_n.contr.Idx) :
    (dot_S2048x2048_S2048x128_S2048x128_1_0_0_1_n_n.rhsIdx i q 1).val = (i 1).val := by
  unfold DotDims.rhsIdx
  rw [dif_neg (show ¬(1 : Fin S2048x128.rank) ∈ dot_S2048x2048_S2048x128_S2048x128_1_0_0_1_n_n.rhsBatch by decide), dif_pos (show (1 : Fin S2048x128.rank) ∈ dot_S2048x2048_S2048x128_S2048x128_1_0_0_1_n_n.rhsNonContracting by decide)]
  rfl

/-- Into a zero accumulator the product at (s, k) is the sum over the 2048 features of left (s, d) times right (d, k). -/
theorem matmul_zero_apply {φ₁ φ₂ : FTy} (l : FVec Ideal S2048x2048 φ₁) (w : FVec Ideal S2048x128 φ₂) (s : Fin 2048) (k : Fin 128) :
    matmul dot_S2048x2048_S2048x128_S2048x128_1_0_0_1_n_n none l w (constant (F := Ideal) S2048x128 .f32 0x00000000#32) (ix2 s k)
      = ∑ d : Fin 2048, l (ix2 s d) * w (ix2 d k) := by
  simp only [matmul]
  rw [Ideal.matmul_constant_zero_apply, ← Equiv.sum_comp (ValueIdx.contrEquiv1 dot_S2048x2048_S2048x128_S2048x128_1_0_0_1_n_n 2048 rfl rfl).symm]
  refine Finset.sum_congr rfl fun d _ => ?_
  have hk := ValueIdx.contrEquiv1_symm_val dot_S2048x2048_S2048x128_S2048x128_1_0_0_1_n_n 2048 rfl rfl d
  have el : dot_S2048x2048_S2048x128_S2048x128_1_0_0_1_n_n.lhsIdx (ix2 s k) ((ValueIdx.contrEquiv1 dot_S2048x2048_S2048x128_S2048x128_1_0_0_1_n_n 2048 rfl rfl).symm d) = ix2 s d := funext fun a => Fin.ext (by
    match a with
    | ⟨0, _⟩ => exact lhs_ax0 _ _
    | ⟨1, _⟩ => exact (lhs_ax1 _ _).trans hk)
  have er : dot_S2048x2048_S2048x128_S2048x128_1_0_0_1_n_n.rhsIdx (ix2 s k) ((ValueIdx.contrEquiv1 dot_S2048x2048_S2048x128_S2048x128_1_0_0_1_n_n 2048 rfl rfl).symm d) = ix2 d k := funext fun a => Fin.ext (by
    match a with
    | ⟨0, _⟩ => exact (rhs_ax0 _ _).trans hk
    | ⟨1, _⟩ => exact rhs_ax1 _ _)
  rw [el, er]

/-! ## The layout operations at an index -/

/-- The 2048 rows regrouped as 256 windows of eight: entry (r, j, k) is row 8r + j. -/
theorem cast_windows {α : Type} (x : S2048x128.Idx → α) (r : Fin 256) (j : Fin 8) (k : Fin 128) :
    shapeCast S256x8x128 x shapeCasts_S2048x128_S256x8x128 (ix3 r j k) = x (ix2 (brow r j) k) :=
  shapeCast_apply x _ _ _ (by
    rw [Shape.rowMajor_val_two, Shape.rowMajor_val_three]
    rfl)

/-- The bias, given a leading unit axis and repeated over the 256 windows: entry (r, j, k) is bias (j, k). -/
theorem bias_bcast {α : Type} (x : S8x128.Idx → α) (r : Fin 256) (j : Fin 8) (k : Fin 128) :
    broadcastTo S256x8x128 (shapeCast S1x8x128 x shapeCasts_S8x128_S1x8x128) broadcasts_S1x8x128_S256x8x128 (ix3 r j k) = x (ix2 j k) := by
  rw [broadcastTo_apply _ broadcasts_S1x8x128_S256x8x128 (ix3 r j k) (ix3 (0 : Fin 1) j k) (fun a => by
    match a with
    | ⟨0, _⟩ => show 0 = if (1 : Nat) = 1 then 0 else _; rw [if_pos rfl]
    | ⟨1, _⟩ => show j.val = if (8 : Nat) = 1 then 0 else j.val; rw [if_neg (by decide)]
    | ⟨2, _⟩ => show k.val = if (128 : Nat) = 1 then 0 else k.val; rw [if_neg (by decide)])]
  exact shapeCast_ab_1ab_apply x _ (0 : Fin 1) j k

/-- A per-window quantity, given a unit window axis and repeated over the eight positions: entry (r, j, k) is the quantity at (r, k). -/
theorem window_bcast {α : Type} (y : S256x128.Idx → α) (r : Fin 256) (j : Fin 8) (k : Fin 128) :
    broadcastTo S256x8x128 (shapeCast S256x1x128 y shapeCasts_S256x128_S256x1x128) broadcasts_S256x1x128_S256x8x128 (ix3 r j k) = y (ix2 r k) := by
  rw [broadcastTo_apply _ broadcasts_S256x1x128_S256x8x128 (ix3 r j k) (ix3 r (0 : Fin 1) k) (fun a => by
    match a with
    | ⟨0, _⟩ => show r.val = if (256 : Nat) = 1 then 0 else r.val; rw [if_neg (by decide)]
    | ⟨1, _⟩ => show 0 = if (1 : Nat) = 1 then 0 else _; rw [if_pos rfl]
    | ⟨2, _⟩ => show k.val = if (128 : Nat) = 1 then 0 else k.val; rw [if_neg (by decide)])]
  exact shapeCast_apply y _ _ _ (by
    rw [Shape.rowMajor_val_two, Shape.rowMajor_val_three]
    show r.val * 128 + k.val = (r.val * 1 + 0) * 128 + k.val
    omega)

/-! ## The window reductions at an index -/

/-- The reduced index (r, k) with window position j put back is (r, j, k). -/
theorem lift_window (r : Fin 256) (k : Fin 128) (j : Fin (S256x8x128.size 1)) :
    reduces_S256x8x128_S256x128.lift (ix2 r k) j = ix3 r (⟨j.val, j.isLt⟩ : Fin 8) k := by
  funext c; apply Fin.ext
  fin_cases c <;> rfl

theorem window_sum (src : FVec Ideal S256x8x128 .f32) (r : Fin 256) (k : Fin 128) :
    multiReduction (F := Ideal) .add [1] S256x128 src 0x00000000#32 reduces_S256x8x128_S256x128 (.inl rfl) rfl (ix2 r k)
      = ∑ j : Fin 8, src (ix3 r j k) :=
  (Ideal.multiReduction_add_single src _ reduces_S256x8x128_S256x128 (.inl rfl) rfl (ix2 r k)).trans
    (Finset.sum_congr rfl fun j _ => congrArg src (lift_window r k j))

theorem window_max (src : FVec Ideal S256x8x128 .f32) (r : Fin 256) (k : Fin 128) :
    multiReduction (F := Ideal) .maximumf [1] S256x128 src 0xFF800000#32 reduces_S256x8x128_S256x128 (.inl rfl) rfl (ix2 r k)
      = (Finset.univ : Finset (Fin 8)).fold max (Ideal.ofBits .f32 0xFF800000#32) (fun j => src (ix3 r j k)) :=
  (Ideal.multiReduction_maximumf_single src _ reduces_S256x8x128_S256x128 (.inl rfl) rfl (ix2 r k)).trans
    (congrArg (fun f => (Finset.univ : Finset (Fin 8)).fold max (Ideal.ofBits .f32 0xFF800000#32) f)
      (funext fun j => congrArg src (lift_window r k j)))

theorem exp_apply {s : Shape} (x : FVec Ideal s .f32) (i : s.Idx) : exp x i = Ideal.exp (x i) := rfl

/-! ## The stored value -/

/-- The softmax part of the body over ANY logits `Z` and values `C` laid out as 256 windows × 8 positions × 128 columns:
    entry (r, k) of the weighted window sum is the window-softmax of window `r`'s logits and values at column `k`. -/
theorem soft_of_vectors (Z C : FVec Ideal S256x8x128 .f32) (r : Fin 256) (k : Fin 128) :
    multiReduction (F := Ideal) .add [1] S256x128 (mulf (divf (exp (subf Z (broadcastTo S256x8x128 (shapeCast S256x1x128 (maximumf (broadcast S256x128 (Scalar.ofBits (F := Ideal) .f32 0xFF800000#32)) (multiReduction (F := Ideal) .maximumf [1] S256x128 Z 0xFF800000#32 reduces_S256x8x128_S256x128 (.inl rfl) rfl)) shapeCasts_S256x128_S256x1x128) broadcasts_S256x1x128_S256x8x128))) (broadcastTo S256x8x128 (shapeCast S256x1x128 (multiReduction (F := Ideal) .add [1] S256x128 (exp (subf Z (broadcastTo S256x8x128 (shapeCast S256x1x128 (maximumf (broadcast S256x128 (Scalar.ofBits (F := Ideal) .f32 0xFF800000#32)) (multiReduction (F := Ideal) .maximumf [1] S256x128 Z 0xFF800000#32 reduces_S256x8x128_S256x128 (.inl rfl) rfl)) shapeCasts_S256x128_S256x1x128) broadcasts_S256x1x128_S256x8x128))) 0x00000000#32 reduces_S256x8x128_S256x128 (.inl rfl) rfl) shapeCasts_S256x128_S256x1x128) broadcasts_S256x1x128_S256x8x128)) C) 0x00000000#32 reduces_S256x8x128_S256x128 (.inl rfl) rfl (ix2 r k)
      = soft (fun j => Z (ix3 r j k)) (fun j => C (ix3 r j k)) := by
  have hmx : ∀ j : Fin 8, (broadcastTo S256x8x128 (shapeCast S256x1x128 (maximumf (broadcast S256x128 (Scalar.ofBits (F := Ideal) .f32 0xFF800000#32)) (multiReduction (F := Ideal) .maximumf [1] S256x128 Z 0xFF800000#32 reduces_S256x8x128_S256x128 (.inl rfl) rfl)) shapeCasts_S256x128_S256x1x128) broadcasts_S256x1x128_S256x8x128) (ix3 r j k) = wmax (fun j => Z (ix3 r j k)) := fun j => by
    rw [window_bcast, maximumf_apply, broadcast_apply, window_max]
    rfl
  have hex : ∀ j : Fin 8, (exp (subf Z (broadcastTo S256x8x128 (shapeCast S256x1x128 (maximumf (broadcast S256x128 (Scalar.ofBits (F := Ideal) .f32 0xFF800000#32)) (multiReduction (F := Ideal) .maximumf [1] S256x128 Z 0xFF800000#32 reduces_S256x8x128_S256x128 (.inl rfl) rfl)) shapeCasts_S256x128_S256x1x128) broadcasts_S256x1x128_S256x8x128))) (ix3 r j k) = Ideal.exp (Z (ix3 r j k) - wmax (fun j => Z (ix3 r j k))) := fun j => by
    rw [exp_apply, subf_apply, hmx]
  rw [window_sum]
  unfold soft
  refine Finset.sum_congr rfl fun j _ => ?_
  rw [mulf_apply, divf_apply, window_bcast, window_sum, hex]
  refine congrArg (fun s => Ideal.div _ s * _) (Finset.sum_congr rfl fun j' _ => hex j')

/-- Entry (r, k) of what the body stores, from the loaded block `x`, the two transposed weight matrices `wkv`, `wz`
    and the bias: the window-softmax of window `r`. -/
theorem pay_apply (x : Vec Ideal S1x2048x2048 .f32) (wkv wz : Vec Ideal S2048x128 .f32) (bias : Vec Ideal S8x128 .f32)
    (u : Fin 1) (r : Fin 256) (k : Fin 128) :
    k0_pay1 (F := Ideal) x wkv wz bias (ix3 u r k)
      = soft (fun j => (∑ d : Fin 2048, x (ix3 (0 : Fin 1) (brow r j) d) * wz (ix2 d k)) + bias (ix2 j k))
          (fun j => ∑ d : Fin 2048, x (ix3 (0 : Fin 1) (brow r j) d) * wkv (ix2 d k)) := by
  unfold k0_pay1
  rw [shapeCast_ab_1ab_apply]
  refine (soft_of_vectors _ _ r k).trans ?_
  have hrow : ∀ (s : Fin 2048) (d : Fin 2048), (truncf (F := Ideal) .bf16 (shapeCast S2048x2048 x shapeCasts_S1x2048x2048_S2048x2048) bitsLt_bf16_f32 : FVec Ideal S2048x2048 .bf16) (ix2 s d) = x (ix3 (0 : Fin 1) s d) := fun s d => by
    rw [truncf_apply]; exact shapeCast_1ab_ab_apply x _ s d
  have hw : ∀ (w : Vec Ideal S2048x128 .f32) (d : Fin 2048), (truncf (F := Ideal) .bf16 (shapeCast S2048x128 w shapeCasts_S2048x128_S2048x128) bitsLt_bf16_f32 : FVec Ideal S2048x128 .bf16) (ix2 d k) = w (ix2 d k) := fun w d => by
    rw [truncf_apply, shapeCast_self]
  congr 1 <;> funext j
  · rw [addf_apply, cast_windows, bias_bcast, matmul_zero_apply]
    exact congrArg (· + bias (ix2 j k)) (Finset.sum_congr rfl fun d _ => by rw [hrow, hw])
  · rw [cast_windows, matmul_zero_apply]
    exact Finset.sum_congr rfl fun d _ => by rw [hrow, hw]

end Cert.KernelIdeal.Body

end
-- ==== Proof.KernelValue.lean ====
/-
  From the blocks to the whole result array.

  The grid has 4 × 4 points; point (b, s) loads tokens 2048 s … 2048 s + 2047 of batch entry b (all 2048
  features), the two whole transposed weight matrices and the whole bias, and writes windows
  256 s … 256 s + 255 of batch entry b. Read through these blocks, entry (r, k) of what a point writes is the
  result function of Spec.lean at (b, 256 s + r, k): rows 8r + j of the block are tokens 8 (256 s + r) + j, and
  the transposed weights at (d, k) are the weights at (k, d). The sixteen written blocks tile the result array.
-/
import proofs.«157883_j70643622085010_1_alg».proof.Proof.Gen.KernelIdeal.Value
import proofs.«157883_j70643622085010_1_alg».proof.Proof.KernelPay
import Idealize.ShloMosaic.Lib.Pipeline.Value
import Idealize.ShloMosaic.Lib.ValueLayout
import Idealize.ShloMosaic.Lib.StableHlo.Run

noncomputable section

namespace Cert.KernelIdeal.Whole

open Cert.KernelIdeal Cert.KernelIdeal.Gen Cert.KernelIdeal.Value Cert.KernelIdeal.Body Cert.WindowSoftmax
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The result array as the function of the four argument arrays. -/
abbrev result (c : Dev nD) : S4x1024x128.Idx → EReal :=
  G (m ((c : Thread nD τ).loc main_arg0)) (m ((c : Thread nD τ).loc main_arg1)) (m ((c : Thread nD τ).loc main_arg2))
    (m ((c : Thread nD τ).loc main_arg3))

/-! ## The arrays the region finds -/

/-- The key/value weights reach the region transposed. -/
theorem V_wkv (c : Dev nD) : (V m c main_v0 : S2048x128.Idx → EReal)
    = transpose S2048x128 [1, 0] (m ((c : Thread nD τ).loc main_arg1)) transposes_S128x2048_S2048x128_1_0 := by
  dsimp only [Gen.V, Gen.hostOps0]; after_results

/-- The gate weights reach the region transposed. -/
theorem V_wz (c : Dev nD) : (V m c main_v1 : S2048x128.Idx → EReal)
    = transpose S2048x128 [1, 0] (m ((c : Thread nD τ).loc main_arg2)) transposes_S128x2048_S2048x128_1_0 := by
  dsimp only [Gen.V, Gen.hostOps0]; after_results

/-! ## The index maps over the grid -/

/-- The input block of tokens moves with the output block; the weights' and the bias's blocks are the whole arrays;
    the output's block indices stay in range. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) ≤ 3 ∧ win0_4.index t (1 : Fin 3) ≤ 3 ∧ win0_4.index t (2 : Fin 3) = 0 :=
  (by decide +kernel : ∀ t : Fin grid0.N, _)

/-- Every block of the result array is some point's. -/
theorem idx_onto : ∀ (q0 : Fin 4) (q1 : Fin 4), ∃ t : Fin cfg0.N, win0_4.index t = ![q0.val, q1.val, 0] :=
  (by decide +kernel : ∀ (q0 : Fin 4) (q1 : Fin 4), ∃ t : Fin grid0.N, win0_4.index t = ![q0.val, q1.val, 0])

/-! ## The input blocks read as entries of the arrays -/

/-- Row `s`, feature `d` of the token block at point `t` is the input at batch entry and token given by the point. -/
theorem xblk_apply (c : Dev nD) (t : Fin cfg0.N) (s : Fin 2048) (d : Fin 2048) (i : S4x8192x2048.Idx)
    (h0 : (i 0).val = win0_4.index t (0 : Fin 3)) (h1 : (i 1).val = win0_4.index t (1 : Fin 3) * 2048 + s.val)
    (h2 : (i 2).val = d.val) :
    (iblk m c 0 t : Vec Ideal S1x2048x2048 .f32) (ix3 (0 : Fin 1) s d) = (m ((c : Thread nD τ).loc main_arg0) : S4x8192x2048.Idx → EReal) i := by
  obtain ⟨e0, e1, e2, -⟩ := idx_facts t
  rw [← V_main_arg0 m c]
  unfold iblk
  rw [View.read_apply]
  show V m c main_arg0 _ = V m c main_arg0 _
  congr 1
  funext a
  apply Fin.ext
  match a with
  | ⟨0, _⟩ => show win0_0.index t (0 : Fin 3) * 1 + 1 * 0 = (i 0).val; rw [e0, h0]; omega
  | ⟨1, _⟩ => show win0_0.index t (1 : Fin 3) * 2048 + 1 * s.val = (i 1).val; rw [e1, h1]; omega
  | ⟨2, _⟩ => show win0_0.index t (2 : Fin 3) * 2048 + 1 * d.val = (i 2).val; rw [e2, h2]; omega

/-- The key/value weight block at any point, at (d, k), is the weight at (k, d). -/
theorem wkvblk_apply (c : Dev nD) (t : Fin cfg0.N) (d : Fin 2048) (k : Fin 128) :
    (iblk m c 1 t : Vec Ideal S2048x128 .f32) (ix2 d k) = (m ((c : Thread nD τ).loc main_arg1) : S128x2048.Idx → EReal) (ix2 k d) := by
  obtain ⟨-, -, -, e0, e1, -⟩ := idx_facts t
  rw [← transpose_ix2_apply (m ((c : Thread nD τ).loc main_arg1) : S128x2048.Idx → EReal) transposes_S128x2048_S2048x128_1_0 d k, ← V_wkv m c]
  unfold iblk
  rw [View.read_apply]
  show V m c main_v0 _ = V m c main_v0 _
  congr 1
  funext a
  apply Fin.ext
  match a with
  | ⟨0, _⟩ => show win0_1.index t (0 : Fin 2) * 2048 + 1 * d.val = d.val; rw [e0]; omega
  | ⟨1, _⟩ => show win0_1.index t (1 : Fin 2) * 128 + 1 * k.val = k.val; rw [e1]; omega

/-- The gate weight block at any point, at (d, k), is the weight at (k, d). -/
theorem wzblk_apply (c : Dev nD) (t : Fin cfg0.N) (d : Fin 2048) (k : Fin 128) :
    (iblk m c 2 t : Vec Ideal S2048x128 .f32) (ix2 d k) = (m ((c : Thread nD τ).loc main_arg2) : S128x2048.Idx → EReal) (ix2 k d) := by
  obtain ⟨-, -, -, -, -, e0, e1, -⟩ := idx_facts t
  rw [← transpose_ix2_apply (m ((c : Thread nD τ).loc main_arg2) : S128x2048.Idx → EReal) transposes_S128x2048_S2048x128_1_0 d k, ← V_wz m c]
  unfold iblk
  rw [View.read_apply]
  show V m c main_v1 _ = V m c main_v1 _
  congr 1
  funext a
  apply Fin.ext
  match a with
  | ⟨0, _⟩ => show win0_2.index t (0 : Fin 2) * 2048 + 1 * d.val = d.val; rw [e0]; omega
  | ⟨1, _⟩ => show win0_2.index t (1 : Fin 2) * 128 + 1 * k.val = k.val; rw [e1]; omega

/-- The bias block at any point is the bias. -/
theorem biasblk_apply (c : Dev nD) (t : Fin cfg0.N) (j : Fin 8) (k : Fin 128) :
    (iblk m c 3 t : Vec Ideal S8x128 .f32) (ix2 j k) = (m ((c : Thread nD τ).loc main_arg3) : S8x128.Idx → EReal) (ix2 j k) := by
  obtain ⟨-, -, -, -, -, -, -, e0, e1, -⟩ := idx_facts t
  rw [← V_main_arg3 m c]
  unfold iblk
  rw [View.read_apply]
  show V m c main_arg3 _ = V m c main_arg3 _
  congr 1
  funext a
  apply Fin.ext
  match a with
  | ⟨0, _⟩ => show win0_3.index t (0 : Fin 2) * 8 + 1 * j.val = j.val; rw [e0]; omega
  | ⟨1, _⟩ => show win0_3.index t (1 : Fin 2) * 128 + 1 * k.val = k.val; rw [e1]; omega

/-! ## What a point writes -/

/-- Entry (r, k) of the value stored at point `t` is the result function at the array index `i` that the point's
    output block puts (r, k) at. -/
theorem point_value (c : Dev nD) (t : Fin cfg0.N) (u : Fin 1) (r : Fin 256) (k : Fin 128) (i : S4x1024x128.Idx)
    (hi0 : (i 0).val = win0_4.index t (0 : Fin 3)) (hi1 : (i 1).val = win0_4.index t (1 : Fin 3) * 256 + r.val)
    (hi2 : (i 2).val = k.val) :
    k0_pay1 (F := Ideal) (iblk m c 0 t) (iblk m c 1 t) (iblk m c 2 t) (iblk m c 3 t) (ix3 u r k) = result m c i := by
  refine (pay_apply (iblk m c 0 t) (iblk m c 1 t) (iblk m c 2 t) (iblk m c 3 t) u r k).trans ?_
  have hk : i 2 = k := Fin.ext hi2
  have hx : ∀ (j : Fin 8) (d : Fin 2048), (iblk m c 0 t : Vec Ideal S1x2048x2048 .f32) (ix3 (0 : Fin 1) (brow r j) d)
      = (m ((c : Thread nD τ).loc main_arg0) : S4x8192x2048.Idx → EReal) (ix3 (i 0) (tok (i 1) j) d) := fun j d =>
    xblk_apply m c t (brow r j) d _ hi0 (by show (i 1).val * 8 + j.val = _; rw [hi1]; show _ = _ + (r.val * 8 + j.val); omega) rfl
  show soft _ _ = soft _ _
  congr 1 <;> funext j
  · unfold proj
    rw [hk, biasblk_apply]
    exact congrArg (· + _) (Finset.sum_congr rfl fun d _ => by rw [hx, wzblk_apply])
  · unfold proj
    rw [hk]
    exact Finset.sum_congr rfl fun d _ => by rw [hx, wkvblk_apply]

/-- What point `t` writes back is block `t` of the result function. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero hz3]
  simp only [View.ld_unit_zero (S := S1x2048x2048) hz3, View.ld_unit_zero (S := S2048x128) hz2, View.ld_unit_zero (S := S8x128) hz2]
  refine funext fun (y : S1x256x128.Idx) => ?_
  obtain ⟨u, r, k, rfl⟩ : ∃ (u : Fin 1) (r : Fin 256) (k : Fin 128), y = ix3 u r k := ⟨y 0, y 1, y 2, eq_ix3 y⟩
  obtain ⟨-, -, -, -, -, -, -, -, -, -, -, e2⟩ := idx_facts t
  refine point_value m c t u r k _ ?_ ?_ ?_
  · show win0_4.index t (0 : Fin 3) * 1 + 1 * u.val = _; have := u.isLt; omega
  · show win0_4.index t (1 : Fin 3) * 256 + 1 * r.val = _; omega
  · show win0_4.index t (2 : Fin 3) * 128 + 1 * k.val = _; rw [e2]; omega

/-! ## The blocks tile the result array -/

/-- An index of the result array is in point `t`'s block iff each coordinate is in the block's range on its axis. -/
theorem mem_blk (t : Fin cfg0.N) (i : S4x1024x128.Idx) :
    i ∈ ((cfg0.win 4).blk t).view.set ↔ ∀ a : Fin 3, win0_4.index t a * S1x256x128.size a ≤ (i a).val ∧ (i a).val < win0_4.index t a * S1x256x128.size a + S1x256x128.size a := by
  show i ∈ ((View.whole main_v2).slice (win0_4.rect t)).set ↔ _
  rw [View.set_slice_whole, Rect.mem_set_unit]
  exact Iff.rfl

/-- Every index (b, n, k) is in the block of the point whose output block is (b, n / 256, 0). -/
theorem cover (i : S4x1024x128.Idx) : ∃ t : Fin cfg0.N, (cfg0.win 4).flush t = true ∧ i ∈ ((cfg0.win 4).blk t).view.set := by
  have hi0 : (i 0).val < 4 := (i 0).isLt
  have hi1 : (i 1).val < 1024 := (i 1).isLt
  have hi2 : (i 2).val < 128 := (i 2).isLt
  obtain ⟨t, ht⟩ := idx_onto ⟨(i 0).val, hi0⟩ ⟨(i 1).val / 256, by omega⟩
  have q0 : win0_4.index t (0 : Fin 3) = (i 0).val := congrFun ht 0
  have q1 : win0_4.index t (1 : Fin 3) = (i 1).val / 256 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 128 ≤ (i 2).val ∧ (i 2).val < win0_4.index t (2 : Fin 3) * 128 + 128; omega

/-- So the result array ends holding the result function of the arguments. -/
theorem final (c : Dev nD) : (dats m 0 c).arrAt 4 cfg0.N = result m c :=
  (dats m 0 c).arrAt_eq_of_cover 4 (result m c) (fun t _ => flushed_eq m c t) cover

/-- The kernel's run, read: the result array at the result function of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.RefValue.lean ====
/-
  The reference, read one operation at a time, is the result function of Spec.lean.

  The reference projects every token with both weight matrices, regroups the 8192 tokens of a batch entry as
  1024 windows of eight (token 8n + j is position j of window n), adds the bias row of the position, and takes
  the softmax over the window positions — the maximum from −∞, the exponentials of the differences, their sum,
  the quotient — before summing weight times value over the window. Each stage is read at an index written by
  coordinates; the two zero initial values of the sums drop out.
-/
import proofs.«157883_j70643622085010_1_alg».proof.Proof.Gen.ReferenceIdeal.Read
import proofs.«157883_j70643622085010_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Cert.WindowSoftmax
open Idealize.ShloMosaic Idealize.ShloMosaic.TcCoe Idealize.ShloMosaic.ValueIdx

variable (x0 : (⟨S4x8192x2048, .f32⟩ : BufTy).Contents (Elt Ideal)) (x1 x2 : (⟨S128x2048, .f32⟩ : BufTy).Contents (Elt Ideal)) (x3 : (⟨S8x128, .f32⟩ : BufTy).Contents (Elt Ideal))

/-! ## The projections -/

theorem kv_proj_apply (b : Fin 4) (s : Fin 8192) (k : Fin 128) :
    val_main_v0 (F := Ideal) x0 x1 (ix3 b s k) = proj x0 x1 b s k := by
  rw [val_main_v0_apply]
  unfold proj
  refine Finset.sum_congr rfl fun d _ => ?_
  have el : lidx_main_v0 (ix3 b s k) d = ix3 b s d := funext fun a => Fin.ext (by
    match a with | ⟨0, _⟩ => rfl | ⟨1, _⟩ => rfl | ⟨2, _⟩ => rfl)
  have er : ridx_main_v0 (ix3 b s k) d = ix2 k d := funext fun a => Fin.ext (by
    match a with | ⟨0, _⟩ => rfl | ⟨1, _⟩ => rfl)
  rw [el, er]

theorem gate_proj_apply (b : Fin 4) (s : Fin 8192) (k : Fin 128) :
    val_main_v1 (F := Ideal) x0 x2 (ix3 b s k) = proj x0 x2 b s k := by
  rw [val_main_v1_apply]
  unfold proj
  refine Finset.sum_congr rfl fun d _ => ?_
  have el : lidx_main_v1 (ix3 b s k) d = ix3 b s d := funext fun a => Fin.ext (by
    match a with | ⟨0, _⟩ => rfl | ⟨1, _⟩ => rfl | ⟨2, _⟩ => rfl)
  have er : ridx_main_v1 (ix3 b s k) d = ix2 k d := funext fun a => Fin.ext (by
    match a with | ⟨0, _⟩ => rfl | ⟨1, _⟩ => rfl)
  rw [el, er]

/-! ## The windows -/

/-- Position j of window n, regrouped, is token 8n + j. -/
theorem regroup_idx (b : Fin 4) (n : Fin 1024) (j : Fin 8) (k : Fin 128) : idx_main_v2 (ix4 b n j k) = ix3 b (tok n j) k := by
  have hb := b.isLt; have hn := n.isLt; have hj := j.isLt; have hk := k.isLt
  funext a; apply Fin.ext
  match a with
  | ⟨0, _⟩ => show (((b.val * 1024 + n.val) * 8 + j.val) * 128 + k.val) / 1048576 = b.val; omega
  | ⟨1, _⟩ => show (((b.val * 1024 + n.val) * 8 + j.val) * 128 + k.val) / 128 % 8192 = n.val * 8 + j.val; omega
  | ⟨2, _⟩ => show (((b.val * 1024 + n.val) * 8 + j.val) * 128 + k.val) % 128 = k.val; omega

theorem values_apply (b : Fin 4) (n : Fin 1024) (j : Fin 8) (k : Fin 128) :
    val_main_v2 (F := Ideal) x0 x1 (ix4 b n j k) = proj x0 x1 b (tok n j) k := by
  rw [val_main_v2_apply, regroup_idx, kv_proj_apply]

theorem bias_apply (b : Fin 4) (n : Fin 1024) (j : Fin 8) (k : Fin 128) :
    val_main_v5 (F := Ideal) x3 (ix4 b n j k) = x3 (ix2 j k) := by
  rw [val_main_v5_apply, val_main_v4_apply]
  exact congrArg x3 (funext fun a => Fin.ext (by match a with | ⟨0, _⟩ => rfl | ⟨1, _⟩ => rfl))

/-- The logits: the gate projection of token 8n + j plus the bias of position j. -/
theorem logits_apply (b : Fin 4) (n : Fin 1024) (j : Fin 8) (k : Fin 128) :
    val_main_v6 (F := Ideal) x0 x2 x3 (ix4 b n j k) = proj x0 x2 b (tok n j) k + x3 (ix2 j k) := by
  rw [val_main_v6_apply, bias_apply, val_main_v3_apply]
  have e : idx_main_v3 (ix4 b n j k) = ix3 b (tok n j) k := regroup_idx b n j k
  rw [e, gate_proj_apply]
  rfl

/-! ## The softmax over a window -/

theorem red : S4x1024x8x128.Reduces [2] S4x1024x128 := by decide

/-- The reduced index (b, n, k) with window position j put back is (b, n, j, k). -/
theorem lift_window (b : Fin 4) (n : Fin 1024) (k : Fin 128) (j : Fin (S4x1024x8x128.size 2)) :
    red.lift (ix3 b n k) j = ix4 b n (⟨j.val, j.isLt⟩ : Fin 8) k := by
  funext c; apply Fin.ext
  fin_cases c <;> rfl

/-- The window's maximum, as the reference takes it. -/
theorem max_apply (b : Fin 4) (n : Fin 1024) (k : Fin 128) :
    val_main_v9 (F := Ideal) x0 x2 x3 (ix3 b n k) = wmax (fun j => val_main_v6 (F := Ideal) x0 x2 x3 (ix4 b n j k)) := by
  rw [val_main_v9_apply, val_main_v8_apply, val_main_cst_0_apply]
  unfold val_main_v7
  rw [Host.reduce_eq_fold_single FloatOps.maximumf _ _ reducesTo_S4x1024x8x128_S4x1024x128_d2 red h_S_]
  unfold wmax
  refine congrArg (max negInf) ?_
  exact congrArg (fun f => (Finset.univ : Finset (Fin 8)).fold max negInf f)
    (funext fun j => congrArg (val_main_v6 (F := Ideal) x0 x2 x3) (lift_window b n k j))

/-- The exponentials of the logits less the window's maximum. -/
theorem exps_apply (b : Fin 4) (n : Fin 1024) (j : Fin 8) (k : Fin 128) :
    val_main_v13 (F := Ideal) x0 x2 x3 (ix4 b n j k)
      = Ideal.exp (val_main_v6 (F := Ideal) x0 x2 x3 (ix4 b n j k) - wmax (fun j => val_main_v6 (F := Ideal) x0 x2 x3 (ix4 b n j k))) := by
  rw [val_main_v13_apply, val_main_v12_apply, val_main_v11_apply, val_main_v10_apply]
  have e : idx_main_v10 (idx_main_v11 (ix4 b n j k)) = ix3 b n k := funext fun a => Fin.ext (by
    match a with | ⟨0, _⟩ => rfl | ⟨1, _⟩ => rfl | ⟨2, _⟩ => rfl)
  rw [e, max_apply]
  rfl

/-- The window's sum of exponentials, repeated over the positions. -/
theorem sums_apply (b : Fin 4) (n : Fin 1024) (j : Fin 8) (k : Fin 128) :
    val_main_v16 (F := Ideal) x0 x2 x3 (ix4 b n j k) = ∑ j' : Fin 8, val_main_v13 (F := Ideal) x0 x2 x3 (ix4 b n j' k) := by
  rw [val_main_v16_apply, val_main_v15_apply]
  have e : idx_main_v15 (idx_main_v16 (ix4 b n j k)) = ix3 b n k := funext fun a => Fin.ext (by
    match a with | ⟨0, _⟩ => rfl | ⟨1, _⟩ => rfl | ⟨2, _⟩ => rfl)
  rw [e, val_main_v14_apply, val_main_cst_1_apply]
  show Ideal.ofBits .f32 0x00000000#32 + _ = _
  rw [Ideal.ofBits_zero_f32, zero_add]
  refine Finset.sum_congr rfl fun j' _ => ?_
  exact congrArg (val_main_v13 (F := Ideal) x0 x2 x3) (funext fun a => Fin.ext (by
    match a with | ⟨0, _⟩ => rfl | ⟨1, _⟩ => rfl | ⟨2, _⟩ => rfl | ⟨3, _⟩ => rfl))

/-! ## The result -/

theorem result_apply (b : Fin 4) (n : Fin 1024) (k : Fin 128) :
    val_main_v19 (F := Ideal) x0 x1 x2 x3 (ix3 b n k)
      = soft (fun j => proj x0 x2 b (tok n j) k + x3 (ix2 j k)) (fun j => proj x0 x1 b (tok n j) k) := by
  rw [val_main_v19_apply, val_main_cst_2_apply]
  show Ideal.ofBits .f32 0x00000000#32 + _ = _
  rw [Ideal.ofBits_zero_f32, zero_add]
  have hz : (fun j => val_main_v6 (F := Ideal) x0 x2 x3 (ix4 b n j k)) = fun j => proj x0 x2 b (tok n j) k + x3 (ix2 j k) :=
    funext fun j => logits_apply x0 x2 x3 b n j k
  unfold soft
  refine Finset.sum_congr rfl fun j _ => ?_
  have e : idx_main_v19 (ix3 b n k) j = ix4 b n j k := funext fun a => Fin.ext (by
    match a with | ⟨0, _⟩ => rfl | ⟨1, _⟩ => rfl | ⟨2, _⟩ => rfl | ⟨3, _⟩ => rfl)
  have hs : (∑ j' : Fin 8, val_main_v13 (F := Ideal) x0 x2 x3 (ix4 b n j' k))
      = ∑ j' : Fin 8, Ideal.exp ((proj x0 x2 b (tok n j') k + x3 (ix2 j' k)) - wmax fun j => proj x0 x2 b (tok n j) k + x3 (ix2 j k)) :=
    Finset.sum_congr rfl fun j' _ => by rw [exps_apply, hz, logits_apply]
  rw [e, val_main_v18_apply, val_main_v17_apply, values_apply, sums_apply, hs, exps_apply, hz, logits_apply]
  rfl

/-- The reference's result is the result function of the four arguments. -/
theorem reference_eq : val_main_v19 (F := Ideal) x0 x1 x2 x3 = G x0 x1 x2 x3 := by
  funext i
  obtain ⟨b, n, k, rfl⟩ : ∃ (b : Fin 4) (n : Fin 1024) (k : Fin 128), i = ix3 b n k := ⟨i 0, i 1, i 2, eq_ix3 i⟩
  rw [result_apply, G_apply]

end Cert.ReferenceIdeal.RefValue

end
-- ==== Proof.lean ====
/-
  A windowed softmax compressor: for every batch entry and every window of eight consecutive tokens, the
  tokens' key/value projections are averaged with softmax weights taken from their gate projections plus a
  per-position bias.

  The kernel tiles the work over a 4 × 4 grid (batch entry × 2048-token tile), multiplies each tile with the
  two transposed weight matrices, regroups the 2048 rows as 256 windows of eight and takes the softmax along
  the window axis. The reference contracts the whole input with the untransposed weights, regroups the 8192
  tokens of a batch entry as 1024 windows and does the same. On the extended reals both are, entry by entry,
  the function `Cert.WindowSoftmax.G` (Proof/Spec.lean) of the four arguments: the changes of float format are
  identities, a product of matrices into a zero accumulator is the plain sum of products, and the two programs
  apply the same maximum, exponential, sum, quotient and product in the same order, so no law of the extended
  reals beyond `0 + x = x` is used and the finiteness of the inputs is never opened.

  Proof/KernelPay.lean reads the kernel body's stored value at an index, Proof/KernelValue.lean lays the sixteen
  written blocks over the result array, Proof/RefValue.lean reads the reference stage by stage; the three
  frames are the generated ones (the reference's is its run with the result dropped), and no rewrite was
  applied when the kernel was idealized.
-/
import proofs.«157883_j70643622085010_1_alg».proof.Defs
import proofs.«157883_j70643622085010_1_alg».proof.Proof.Gen.Kernel
import proofs.«157883_j70643622085010_1_alg».proof.Proof.Gen.Kernel.Skeleton
import proofs.«157883_j70643622085010_1_alg».proof.Proof.Gen.Kernel.Launch
import proofs.«157883_j70643622085010_1_alg».proof.Proof.Gen.Kernel.Points
import proofs.«157883_j70643622085010_1_alg».proof.Proof.Gen.Kernel.Frame
import proofs.«157883_j70643622085010_1_alg».proof.Proof.Gen.KernelIdeal
import proofs.«157883_j70643622085010_1_alg».proof.Proof.Gen.KernelIdeal.Skeleton
import proofs.«157883_j70643622085010_1_alg».proof.Proof.Gen.KernelIdeal.Launch
import proofs.«157883_j70643622085010_1_alg».proof.Proof.Gen.KernelIdeal.Points
import proofs.«157883_j70643622085010_1_alg».proof.Proof.Gen.KernelIdeal.Frame
import proofs.«157883_j70643622085010_1_alg».proof.Proof.Gen.ReferenceIdeal
import proofs.«157883_j70643622085010_1_alg».proof.Proof.Gen.Pre_finite_inputs
import proofs.«157883_j70643622085010_1_alg».proof.Proof.Gen.KernelIdeal.Value
import proofs.«157883_j70643622085010_1_alg».proof.Proof.Gen.ReferenceIdeal.Run
import proofs.«157883_j70643622085010_1_alg».proof.Proof.Gen.ReferenceIdeal.Read
import proofs.«157883_j70643622085010_1_alg».proof.Proof.KernelValue
import proofs.«157883_j70643622085010_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with each of their two results at the result function of the arguments (the kernel returns its
    one array twice, the reference likewise), and the arguments agree. -/
theorem algebraic : Cert.algebraic_KernelIdeal_ReferenceIdeal := by
  intro m ρ m' ρ' _ hagree
  refine ⟨fun c => Cert.KernelIdeal.Whole.result m c, fun c => Cert.KernelIdeal.Whole.result m c, ?_, ?_⟩
  · exact (θ_run Cert.KernelIdeal.defs _ _).mono (fun _ h c => ⟨(h c).1, (h c).1, (h c).2⟩)
      (Cert.KernelIdeal.Whole.run m ρ)
  · refine (θ_run Cert.ReferenceIdeal.defs _ _).mono (fun _ h c => ?_)
      (Cert.ReferenceIdeal.Value.run (F := Ideal) m' ρ')
    have hres := (h c).1
    rw [Cert.ReferenceIdeal.Read.val_main_v19_eq, Cert.ReferenceIdeal.RefValue.reference_eq,
      (hagree c).1, (hagree c).2.1, (hagree c).2.2.1, (hagree c).2.2.2] at hres
    exact ⟨hres, hres, (h c).2.2⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
